-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192x64 .f32) (main_arg9 : FVec F S192 .f32) (main_arg10 : FVec F S192 .f32) (main_v33 : IVec S_ 1) : IVec S_ 1 :=
  let main_v34 : FVec F S192x64 .f32 := Host.absf main_arg8
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg9
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S192x64 .f32) (main_arg8 : FVec F S192x64 .f32) (main_arg9 : FVec F S192 .f32) (main_arg10 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1000000 32) (main_arg2 : FVec F S1000000x32 .f32) (main_arg3 : FVec F S64x160 .f32) (main_arg4 : FVec F S64 .f32) (main_arg5 : FVec F S64x64 .f32) (main_arg6 : FVec F S64 .f32) (main_arg7 : FVec F S192x64 .f32) (main_arg8 : FVec F S192x64 .f32) (main_arg9 : FVec F S192 .f32) (main_arg10 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x160 .f32 := Host.absf main_arg3
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S160x64 : Shape := ⟨2, ![160, 64]⟩
abbrev S4000x64 : Shape := ⟨2, ![4000, 64]⟩
abbrev S4000x32 : Shape := ⟨2, ![4000, 32]⟩
abbrev S4000x160 : Shape := ⟨2, ![4000, 160]⟩
abbrev S1x64 : Shape := ⟨2, ![1, 64]⟩
abbrev S64x192 : Shape := ⟨2, ![64, 192]⟩
abbrev S2000x64 : Shape := ⟨2, ![2000, 64]⟩
abbrev S2000x192 : Shape := ⟨2, ![2000, 192]⟩
abbrev S1x192 : Shape := ⟨2, ![1, 192]⟩

abbrev nBuf : Space → Nat
  | .hbm => 43
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S160x64, .f32⟩
  | .hbm, ⟨34, _⟩ => ⟨S64x64, .f32⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S64x192, .f32⟩
  | .hbm, ⟨41, _⟩ => ⟨S64x192, .f32⟩
  | .hbm, ⟨42, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x32, .f32⟩
  | .local _ .vmem, ⟨5, _⟩ => ⟨S4000x32, .f32⟩
  | .local _ .vmem, ⟨6, _⟩ => ⟨S160x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x192, .f32⟩
  | .local _ .vmem, ⟨17, _⟩ => ⟨S64x192, .f32⟩
  | .local _ .vmem, ⟨18, _⟩ => ⟨S192, .f32⟩
  | .local _ .vmem, ⟨19, _⟩ => ⟨S192, .f32⟩
  | .local _ .vmem, ⟨20, _⟩ => ⟨S2000x64, .f32⟩
  | .local _ .vmem, ⟨21, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x160_S160x64_1_0 : S64x160.Transposes [1, 0] S160x64
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x32_S4000x32_0_0 : ∀ a, (![0, 0] : Fin 2 → Nat) a + S4000x32.size a ≤ S4000x32.size a
  h_S4000x32 : 0 < S4000x32.numel
  concatenates_S4000x64_S4000x64_S4000x32_S4000x160_d1 : Shape.Concatenates [S4000x64, S4000x64, S4000x32] S4000x160 1
  bitsLt_bf16_f32 : FTy.bits .bf16 < FTy.bits .f32
  inb_S160x64_S160x64_0_0 : ∀ a, (![0, 0] : Fin 2 → Nat) a + S160x64.size a ≤ S160x64.size a
  h_S160x64 : 0 < S160x64.numel
  shapeCasts_S160x64_S160x64 : S160x64.ShapeCasts S160x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  transposes_S192x64_S64x192_1_0 : S192x64.Transposes [1, 0] S64x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S1x192 : S192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  gather_S100000x64_S1000000x1_S1000000x64_1_0_n_n_0_1_164_wf : GatherDims.WF S100000x64 S1000000x1 S1000000x64 [1] [0] [] [0] [] 1 ![1, 64]
  dot_S4000x160_S160x64_S4000x64_1_0_0_1_n_n_wf : DotDims.WF S4000x160 S160x64 S4000x64 [1] [0] [0] [1] [] []
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1000000x32.size a
  hwx0_2 : ∀ i : grid0.Coords, EltTy.bits .f32 = 32 ∨ (Rect.block (s := S1000000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S1000000x64.size a
  hwx0_7 : ∀ i : grid0.Coords, EltTy.bits .f32 = 32 ∨ (Rect.block (s := S1000000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192.size a ≤ S192.size a
  hwx1_4 : ∀ i : grid1.Coords, EltTy.bits .f32 = 32 ∨ (Rect.block (s := S192) S192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192.size a ≤ S192.size a
  hwx1_5 : ∀ i : grid1.Coords, EltTy.bits .f32 = 32 ∨ (Rect.block (s := S192) S192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x160_S160x64_S4000x64_1_0_0_1_n_n : DotDims S4000x160 S160x64 S4000x64 where
  lhsContracting := [1]
  rhsContracting := [0]
  lhsNonContracting := [0]
  rhsNonContracting := [1]
  lhsBatch := []
  rhsBatch := []
  wf := dot_S4000x160_S160x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x160 : Shape := ⟨2, ![1000000, 160]⟩
abbrev S160x64 : Shape := ⟨2, ![160, 64]⟩
abbrev S1x64 : Shape := ⟨2, ![1, 64]⟩
abbrev S64x192 : Shape := ⟨2, ![64, 192]⟩
abbrev S100000x192 : Shape := ⟨2, ![100000, 192]⟩
abbrev S1x192 : Shape := ⟨2, ![1, 192]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S1000000x160, .f32⟩
  | .hbm, ⟨34, _⟩ => ⟨S160x64, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S64x64, .f32⟩
  | .hbm, ⟨43, _⟩ => ⟨S1000000x64, .f32⟩
  | .hbm, ⟨44, _⟩ => ⟨S1x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S100000x64, .f32⟩
  | .hbm, ⟨49, _⟩ => ⟨S1000000x1, .i32⟩
  | .hbm, ⟨50, _⟩ => ⟨S100000x64, .f32⟩
  | .hbm, ⟨51, _⟩ => ⟨S64x192, .f32⟩
  | .hbm, ⟨52, _⟩ => ⟨S100000x192, .f32⟩
  | .hbm, ⟨53, _⟩ => ⟨S1x192, .f32⟩
  | .hbm, ⟨54, _⟩ => ⟨S100000x192, .f32⟩
  | .hbm, ⟨55, _⟩ => ⟨S100000x192, .f32⟩
  | .hbm, ⟨56, _⟩ => ⟨S64x192, .f32⟩
  | .hbm, ⟨57, _⟩ => ⟨S100000x192, .f32⟩
  | .hbm, ⟨58, _⟩ => ⟨S1x192, .f32⟩
  | .hbm, ⟨59, _⟩ => ⟨S100000x192, .f32⟩
  | .hbm, ⟨60, _⟩ => ⟨S100000x192, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x32_S1000000x160_d1 : Shape.Concatenates [S1000000x64, S1000000x64, S1000000x32] S1000000x160 1
  transposes_S64x160_S160x64_1_0 : S64x160.Transposes [1, 0] S160x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  gather_S100000x64_S1000000x1_S1000000x64_1_0_n_n_0_1_164_wf : GatherDims.WF S100000x64 S1000000x1 S1000000x64 [1] [0] [] [0] [] 1 ![1, 64]
  dot_S1000000x160_S160x64_S1000000x64_1_0_0_1_n_n_wf : DotDims.WF S1000000x160 S160x64 S1000000x64 [1] [0] [0] [1] [] []
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x64_S64x192_S100000x192_1_0_0_1_n_n_wf : DotDims.WF S100000x64 S64x192 S100000x192 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.Spec.lean ====
/-
  What the two programs compute, stated once as plain functions of the argument arrays.

  A message is a two-layer perceptron applied to one edge's input row: the features of the edge's source node, of its
  target node and of the edge itself side by side (160 numbers), a linear layer with bias, the positive part, a
  second linear layer with bias (64 numbers). A node's new state is a gated recurrent cell applied to the node's old
  state `h` and to the sum `a` of the messages arriving at it: with the two stacked linear maps
  `gi = a · wih + bih` and `gh = h · whh + bhh` (192 numbers each, three gates of 64),
  `r = σ(gi_r + gh_r)`, `z = σ(gi_z + gh_z)`, `n = tanh(gi_n + r · gh_n)`, and the new state is
  `(1 - z) · n + z · h`. Everything is over the extended reals; nothing here needs an entry to be finite.
-/
import proofs.«172447_j58059367907338_1_alg».proof.KernelIdeal
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx Cert.KernelIdeal

/-- Three rows side by side: 64, 64 and 32 entries make one row of 160. -/
def catRow (a b : Fin 64 → EReal) (c : Fin 32 → EReal) (l : Fin 160) : EReal :=
  if h : l.val < 64 then a ⟨l.val, h⟩
  else if h' : l.val < 128 then b ⟨l.val - 64, by omega⟩
  else c ⟨l.val - 128, by omega⟩

/-- The hidden layer of the message perceptron at unit `k`: the positive part of `x · w1 + b1`. -/
def hidden (x : Fin 160 → EReal) (w1 : FVec Ideal S160x64 .f32) (b1 : FVec Ideal S64 .f32) (k : Fin 64) : EReal :=
  max ((∑ l : Fin 160, x l * w1 (ix2 l k)) + b1 (ix1 k)) (Ideal.ofBits .f32 0x00000000#32)

/-- The message perceptron on one input row, at output unit `q`. -/
def mlpRow (x : Fin 160 → EReal) (w1 : FVec Ideal S160x64 .f32) (b1 : FVec Ideal S64 .f32)
    (w2 : FVec Ideal S64x64 .f32) (b2 : FVec Ideal S64 .f32) (q : Fin 64) : EReal :=
  (∑ k : Fin 64, hidden x w1 b1 k * w2 (ix2 k q)) + b2 (ix1 q)

/-- Every edge's message: the perceptron on the edge's row of source, target and edge features. -/
def Msg (xs xd : FVec Ideal S1000000x64 .f32) (ef : FVec Ideal S1000000x32 .f32) (w1 : FVec Ideal S160x64 .f32)
    (b1 : FVec Ideal S64 .f32) (w2 : FVec Ideal S64x64 .f32) (b2 : FVec Ideal S64 .f32) : FVec Ideal S1000000x64 .f32 :=
  fun i => mlpRow (catRow (fun l => xs (ix2 (n0 := 1000000) (n1 := 64) (i 0) l)) (fun l => xd (ix2 (n0 := 1000000) (n1 := 64) (i 0) l))
    (fun l => ef (ix2 (n0 := 1000000) (n1 := 32) (i 0) l))) w1 b1 w2 b2 (i 1)

/-- One stacked linear map of the cell at gate entry `j`: `a · w + b`. -/
def gate (a : Fin 64 → EReal) (w : FVec Ideal S64x192 .f32) (b : FVec Ideal S192 .f32) (j : Fin 192) : EReal :=
  (∑ k : Fin 64, a k * w (ix2 k j)) + b (ix1 j)

/-- The reset gate. -/
def gateR (h a : Fin 64 → EReal) (wih whh : FVec Ideal S64x192 .f32) (bih bhh : FVec Ideal S192 .f32) (q : Fin 64) : EReal :=
  Ideal.logistic (gate a wih bih ⟨0 + q.val, by omega⟩ + gate h whh bhh ⟨0 + q.val, by omega⟩)
/-- The update gate. -/
def gateZ (h a : Fin 64 → EReal) (wih whh : FVec Ideal S64x192 .f32) (bih bhh : FVec Ideal S192 .f32) (q : Fin 64) : EReal :=
  Ideal.logistic (gate a wih bih ⟨64 + q.val, by omega⟩ + gate h whh bhh ⟨64 + q.val, by omega⟩)
/-- The candidate state. -/
def gateN (h a : Fin 64 → EReal) (wih whh : FVec Ideal S64x192 .f32) (bih bhh : FVec Ideal S192 .f32) (q : Fin 64) : EReal :=
  Ideal.tanh (gate a wih bih ⟨128 + q.val, by omega⟩ + gateR h a wih whh bih bhh q * gate h whh bhh ⟨128 + q.val, by omega⟩)

/-- The cell on one node: old state `h`, summed messages `a`. -/
def gruRow (h a : Fin 64 → EReal) (wih whh : FVec Ideal S64x192 .f32) (bih bhh : FVec Ideal S192 .f32) (q : Fin 64) : EReal :=
  (Ideal.ofBits .f32 0x3F800000#32 - gateZ h a wih whh bih bhh q) * gateN h a wih whh bih bhh q + gateZ h a wih whh bih bhh q * h q

/-- Every node's new state. -/
def Gru (nf agg : FVec Ideal S100000x64 .f32) (wih whh : FVec Ideal S64x192 .f32) (bih bhh : FVec Ideal S192 .f32) :
    FVec Ideal S100000x64 .f32 :=
  fun i => gruRow (fun k => nf (ix2 (n0 := 100000) (n1 := 64) (i 0) k)) (fun k => agg (ix2 (n0 := 100000) (n1 := 64) (i 0) k)) wih whh bih bhh (i 1)

theorem Msg_apply (xs xd : FVec Ideal S1000000x64 .f32) (ef : FVec Ideal S1000000x32 .f32) (w1 : FVec Ideal S160x64 .f32)
    (b1 : FVec Ideal S64 .f32) (w2 : FVec Ideal S64x64 .f32) (b2 : FVec Ideal S64 .f32) (e : Fin 1000000) (q : Fin 64) :
    Msg xs xd ef w1 b1 w2 b2 (ix2 e q)
      = mlpRow (catRow (fun l => xs (ix2 e l)) (fun l => xd (ix2 e l)) (fun l => ef (ix2 e l))) w1 b1 w2 b2 q := rfl

theorem Gru_apply (nf agg : FVec Ideal S100000x64 .f32) (wih whh : FVec Ideal S64x192 .f32) (bih bhh : FVec Ideal S192 .f32)
    (n : Fin 100000) (q : Fin 64) :
    Gru nf agg wih whh bih bhh (ix2 n q) = gruRow (fun k => nf (ix2 n k)) (fun k => agg (ix2 n k)) wih whh bih bhh q := rfl

/-- The word of the float one is the number one. -/
theorem ofBits_one : Ideal.ofBits .f32 0x3F800000#32 = 1 := by
  simp [Ideal.ofBits, Ideal.ieee, -EReal.coe_mul]; norm_num

/-- The logistic function spelled with a quotient, the word of one for its ones. -/
theorem logistic_eq_div (x : EReal) :
    Ideal.div (Ideal.ofBits .f32 0x3F800000#32) (Ideal.ofBits .f32 0x3F800000#32 + Ideal.exp (-x)) = Ideal.logistic x := by
  rw [ofBits_one]; rfl

end Cert.Spec

end
-- ==== Proof.KernelValue.lean ====
/-
  The kernel program's result as a function of its arguments.

  The program is four stretches: host operations (two gathers of node rows by the edge list's two rows, two weight
  transposes), the message region, host operations (the scatter-add of the messages by target node into zeros, two
  weight transposes), the cell region. Read backwards from the result array: it is the cell of the arrays the second
  region was entered with; of those, the summed messages are the scatter-add of the first region's output array,
  which is the message perceptron of the arrays the first region was entered with; and those are the gathers and
  transposes of the launch arguments. Each host value is the very operation the reference program applies to the same
  arguments, so the whole is the reference's last stage once its messages and its cell are read the same way.
-/
import proofs.«172447_j58059367907338_1_alg».proof.Proof.Gen.KernelIdeal.Frame
import proofs.«172447_j58059367907338_1_alg».proof.Proof.Gen.ReferenceIdeal.Read
import proofs.«172447_j58059367907338_1_alg».proof.Proof.Spec
import Idealize.ShloMosaic.Lib.StableHlo.Run

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-! ## The arrays the message region is entered with -/

theorem src_rows (c : Dev nD) : V1 m ρ c main_v10 = val_main_v10 (F := Ideal) (m ((c : Thread nD τ).loc main_arg0)) (m ((c : Thread nD τ).loc main_arg1)) := by
  show StableHlo.after hostOps0 (W0 m ρ c) (Proc.devRef .tc main_v10) = _
  after_results
  rfl

theorem dst_rows (c : Dev nD) : V1 m ρ c main_v17 = val_main_v17 (F := Ideal) (m ((c : Thread nD τ).loc main_arg0)) (m ((c : Thread nD τ).loc main_arg1)) := by
  show StableHlo.after hostOps0 (W0 m ρ c) (Proc.devRef .tc main_v17) = _
  after_results
  rfl

theorem edge_feats (c : Dev nD) : V1 m ρ c main_arg2 = (m ((c : Thread nD τ).loc main_arg2)) := by
  show StableHlo.after hostOps0 (W0 m ρ c) (Proc.devRef .tc main_arg2) = _
  after_results

theorem w1_t (c : Dev nD) : V1 m ρ c main_v18 = val_main_v19 (F := Ideal) (m ((c : Thread nD τ).loc main_arg3)) := by
  show StableHlo.after hostOps0 (W0 m ρ c) (Proc.devRef .tc main_v18) = _
  after_results
  rfl

theorem b1_in (c : Dev nD) : V1 m ρ c main_arg4 = (m ((c : Thread nD τ).loc main_arg4)) := by
  show StableHlo.after hostOps0 (W0 m ρ c) (Proc.devRef .tc main_arg4) = _
  after_results

theorem w2_t (c : Dev nD) : V1 m ρ c main_v19 = val_main_v25 (F := Ideal) (m ((c : Thread nD τ).loc main_arg5)) := by
  show StableHlo.after hostOps0 (W0 m ρ c) (Proc.devRef .tc main_v19) = _
  after_results
  rfl

theorem b2_in (c : Dev nD) : V1 m ρ c main_arg6 = (m ((c : Thread nD τ).loc main_arg6)) := by
  show StableHlo.after hostOps0 (W0 m ρ c) (Proc.devRef .tc main_arg6) = _
  after_results

/-- The target-node row of the edge list, as the first stretch leaves it. -/
theorem dst_ids (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

/-! ## The message region's output array -/

/-- What the first region leaves in its output array: the reference's messages of the same arguments. -/
theorem messages (hmsg : ∀ (V : (c : Dev nD) → (b : Ref sig .tc) → Buf (Elt Ideal) ((c : Thread nD τ).loc b)) (c : Dev nD), (dat0 (F := Ideal) V c).arrAt 7 cfg0.N
      = Cert.Spec.Msg (V c main_v10) (V c main_v17) (V c main_arg2) (V c main_v18) (V c main_arg4) (V c main_v19) (V c main_arg6))
    (hR1 : ∀ x0 x1 x2 x3 x4 x5 x6, val_main_v29 (F := Ideal) x0 x1 x2 x3 x4 x5 x6
      = Cert.Spec.Msg (val_main_v10 (F := Ideal) x0 x1) (val_main_v17 (F := Ideal) x0 x1) x2 (val_main_v19 (F := Ideal) x3) x4 (val_main_v25 (F := Ideal) x5) x6) (c : Dev nD) :
    W2 m ρ c (Proc.devRef .tc main_v20) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 7).trans <| (hmsg (V1 m ρ) c).trans <| by
    rw [src_rows, dst_rows, edge_feats, w1_t, b1_in, w2_t, b2_in]
    exact (hR1 _ _ _ _ _ _ _).symm

/-! ## The arrays the cell region is entered with -/

theorem old_state (c : Dev nD) : V3 m ρ c main_arg0 = (m ((c : Thread nD τ).loc main_arg0)) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The messages summed by target node: the scatter-add, into zeros, of the first region's output array. -/
theorem summed (hmsg : ∀ (V : (c : Dev nD) → (b : Ref sig .tc) → Buf (Elt Ideal) ((c : Thread nD τ).loc b)) (c : Dev nD), (dat0 (F := Ideal) V c).arrAt 7 cfg0.N
      = Cert.Spec.Msg (V c main_v10) (V c main_v17) (V c main_arg2) (V c main_v18) (V c main_arg4) (V c main_v19) (V c main_arg6))
    (hR1 : ∀ x0 x1 x2 x3 x4 x5 x6, val_main_v29 (F := Ideal) x0 x1 x2 x3 x4 x5 x6
      = Cert.Spec.Msg (val_main_v10 (F := Ideal) x0 x1) (val_main_v17 (F := Ideal) x0 x1) x2 (val_main_v19 (F := Ideal) x3) x4 (val_main_v25 (F := Ideal) x5) x6) (c : Dev nD) :
    V3 m ρ c main_v23 = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v23) = _
  after_results
  rw [messages m ρ hmsg hR1 c, W2_of_ne m ρ c main_v3 (by decide), dst_ids]
  rfl

theorem wih_t (c : Dev nD) : V3 m ρ c main_v24 = val_main_v33 (F := Ideal) (m ((c : Thread nD τ).loc main_arg7)) := by
  show StableHlo.after hostOps1 (W2 m ρ c) (Proc.devRef .tc main_v24) = _
  after_results
  rw [W2_of_ne m ρ c main_arg7 (by decide)]
  have e : W1 m ρ c (Proc.devRef .tc main_arg7) = (m ((c : Thread nD τ).loc main_arg7)) := by
    show StableHlo.after hostOps0 (W0 m ρ c) (Proc.devRef .tc main_arg7) = _
    after_results
  rw [e]
  rfl

theorem whh_t (c : Dev nD) : V3 m ρ c main_v25 = val_main_v38 (F := Ideal) (m ((c : Thread nD τ).loc main_arg8)) := by
  show StableHlo.after hostOps1 (W2 m ρ c) (Proc.devRef .tc main_v25) = _
  after_results
  rw [W2_of_ne m ρ c main_arg8 (by decide)]
  have e : W1 m ρ c (Proc.devRef .tc main_arg8) = (m ((c : Thread nD τ).loc main_arg8)) := by
    show StableHlo.after hostOps0 (W0 m ρ c) (Proc.devRef .tc main_arg8) = _
    after_results
  rw [e]
  rfl

theorem bih_in (c : Dev nD) : V3 m ρ c main_arg9 = (m ((c : Thread nD τ).loc main_arg9)) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

theorem bhh_in (c : Dev nD) : V3 m ρ c main_arg10 = (m ((c : Thread nD τ).loc main_arg10)) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

/-! ## The result -/

/-- The last boundary's contents at the result array are the reference's last stage of the same arguments. -/
theorem result_eq (hmsg : ∀ (V : (c : Dev nD) → (b : Ref sig .tc) → Buf (Elt Ideal) ((c : Thread nD τ).loc b)) (c : Dev nD), (dat0 (F := Ideal) V c).arrAt 7 cfg0.N
      = Cert.Spec.Msg (V c main_v10) (V c main_v17) (V c main_arg2) (V c main_v18) (V c main_arg4) (V c main_v19) (V c main_arg6))
    (hgru : ∀ (V : (c : Dev nD) → (b : Ref sig .tc) → Buf (Elt Ideal) ((c : Thread nD τ).loc b)) (c : Dev nD), (dat1 (F := Ideal) V c).arrAt 6 cfg1.N
      = Cert.Spec.Gru (V c main_arg0) (V c main_v23) (V c main_v24) (V c main_v25) (V c main_arg9) (V c main_arg10))
    (hR1 : ∀ x0 x1 x2 x3 x4 x5 x6, val_main_v29 (F := Ideal) x0 x1 x2 x3 x4 x5 x6
      = Cert.Spec.Msg (val_main_v10 (F := Ideal) x0 x1) (val_main_v17 (F := Ideal) x0 x1) x2 (val_main_v19 (F := Ideal) x3) x4 (val_main_v25 (F := Ideal) x5) x6)
    (hR2 : ∀ x0 x1 x2 x3 x4 x5 x6 x7 x8 x9 x10, val_main_v70 (F := Ideal) x0 x1 x2 x3 x4 x5 x6 x7 x8 x9 x10
      = Cert.Spec.Gru x0 (val_main_v32 (F := Ideal) x0 x1 x2 x3 x4 x5 x6) (val_main_v33 (F := Ideal) x7) (val_main_v38 (F := Ideal) x8) x9 x10) (c : Dev nD) :
    W4 m ρ c (Proc.devRef .tc main_v26) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans <| (hgru (V3 m ρ) c).trans <| by
    rw [old_state, summed m ρ hmsg hR1, wih_t, whh_t, bih_in, bhh_in]
    exact (hR2 _ _ _ _ _ _ _ _ _ _ _).symm

end Cert.KernelIdeal.ResultValue

end
-- ==== Proof.Claims.lean ====
/-
  The five claims.

  The three frames are the generated ones (the reference's is its generated run with the result dropped). The ideal
  pass rewrote nothing, so there is nothing to preserve. For the value claim both programs end at ONE term of the
  arguments, the reference's last stage: the kernel program's result array is read back through its two regions and
  its host operations to that stage, given that each region's output array is the message perceptron, respectively
  the recurrent cell, of the arrays it was entered with, and that the reference's messages and result read the same
  way; the reference's run ends at that stage by construction. No step uses that an input is finite.
-/
import proofs.«172447_j58059367907338_1_alg».proof.Defs
import proofs.«172447_j58059367907338_1_alg».proof.Proof.Gen.Kernel.Frame
import proofs.«172447_j58059367907338_1_alg».proof.Proof.Gen.KernelIdeal.Frame
import proofs.«172447_j58059367907338_1_alg».proof.Proof.Gen.ReferenceIdeal.Run
import proofs.«172447_j58059367907338_1_alg».proof.Proof.Gen.ReferenceIdeal.Read
import proofs.«172447_j58059367907338_1_alg».proof.Proof.Gen.Kernel
import proofs.«172447_j58059367907338_1_alg».proof.Proof.Gen.KernelIdeal
import proofs.«172447_j58059367907338_1_alg».proof.Proof.Gen.ReferenceIdeal
import proofs.«172447_j58059367907338_1_alg».proof.Proof.Gen.Pre_finite_inputs
import proofs.«172447_j58059367907338_1_alg».proof.Proof.KernelRun
import proofs.«172447_j58059367907338_1_alg».proof.Proof.KernelValue

noncomputable section

namespace Cert.Proof.Claims

open Idealize.ShloMosaic Idealize.ShloMosaic.TcCoe Idealize.SL.Sem
open Cert.ReferenceIdeal.Read

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

section Value

open Cert.KernelIdeal Cert.KernelIdeal.Gen

/-- Both programs, run from memories that agree on the arguments, end with the result array at the reference's last
    stage of the arguments. -/
theorem algebraic
    (hmsg : ∀ (V : (c : Dev nD) → (b : Ref sig .tc) → Buf (Elt Ideal) ((c : Thread nD τ).loc b)) (c : Dev nD), (dat0 (F := Ideal) V c).arrAt 7 cfg0.N
      = Cert.Spec.Msg (V c main_v10) (V c main_v17) (V c main_arg2) (V c main_v18) (V c main_arg4) (V c main_v19) (V c main_arg6))
    (hgru : ∀ (V : (c : Dev nD) → (b : Ref sig .tc) → Buf (Elt Ideal) ((c : Thread nD τ).loc b)) (c : Dev nD), (dat1 (F := Ideal) V c).arrAt 6 cfg1.N
      = Cert.Spec.Gru (V c main_arg0) (V c main_v23) (V c main_v24) (V c main_v25) (V c main_arg9) (V c main_arg10))
    (hR1 : ∀ x0 x1 x2 x3 x4 x5 x6, val_main_v29 (F := Ideal) x0 x1 x2 x3 x4 x5 x6
      = Cert.Spec.Msg (val_main_v10 (F := Ideal) x0 x1) (val_main_v17 (F := Ideal) x0 x1) x2 (val_main_v19 (F := Ideal) x3) x4 (val_main_v25 (F := Ideal) x5) x6)
    (hR2 : ∀ x0 x1 x2 x3 x4 x5 x6 x7 x8 x9 x10, val_main_v70 (F := Ideal) x0 x1 x2 x3 x4 x5 x6 x7 x8 x9 x10
      = Cert.Spec.Gru x0 (val_main_v32 (F := Ideal) x0 x1 x2 x3 x4 x5 x6) (val_main_v33 (F := Ideal) x7) (val_main_v38 (F := Ideal) x8) x9 x10) :
    Cert.algebraic_KernelIdeal_ReferenceIdeal := by
  intro m ρ m' ρ' _ hagree
  refine ⟨fun c => val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.ResultValue.result_eq m ρ hmsg hgru hR1 hR2 c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Value

end Cert.Proof.Claims

end
-- ==== Proof.MsgRegion.lean ====
/-
  The first region: 250 grid points, point `t` computing the messages of edges `4000 t … 4000 t + 3999` from the
  same rows of the gathered source features, target features and edge features and from the two weight matrices and
  biases, which every point reads whole. Its output array therefore ends holding every edge's message.
-/
import proofs.«172447_j58059367907338_1_alg».proof.Proof.Gen.KernelIdeal.Frame
import proofs.«172447_j58059367907338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MsgRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the core's buffer contents when the region is entered: any
variable (V : (c : Dev nD) → (b : Ref sig .tc) → Buf (Elt Ideal) ((c : Thread nD τ).loc b))

/-! ## The two products: which entries of the operands an entry of the product reads -/

theorem lhs_first_0 (i : S4000x64.Idx) (q : dot_S4000x160_S160x64_S4000x64_1_0_0_1_n_n.contr.Idx) :
    (dot_S4000x160_S160x64_S4000x64_1_0_0_1_n_n.lhsIdx i q 0).val = (i 0).val := by
  unfold DotDims.lhsIdx
  rw [dif_neg (show ¬(0 : Fin S4000x160.rank) ∈ dot_S4000x160_S160x64_S4000x64_1_0_0_1_n_n.lhsBatch by decide), dif_pos (show (0 : Fin S4000x160.rank) ∈ dot_S4000x160_S160x64_S4000x64_1_0_0_1_n_n.lhsNonContracting by decide)]
  rfl
theorem lhs_first_1 (i : S4000x64.Idx) (q : dot_S4000x160_S160x64_S4000x64_1_0_0_1_n_n.contr.Idx) :
    (dot_S4000x160_S160x64_S4000x64_1_0_0_1_n_n.lhsIdx i q 1).val = (q ⟨0, by decide⟩).val :=
  dot_S4000x160_S160x64_S4000x64_1_0_0_1_n_n.lhsIdx_val_of_single rfl i q
theorem rhs_first_0 (i : S4000x64.Idx) (q : dot_S4000x160_S160x64_S4000x64_1_0_0_1_n_n.contr.Idx) :
    (dot_S4000x160_S160x64_S4000x64_1_0_0_1_n_n.rhsIdx i q 0).val = (q ⟨0, by decide⟩).val :=
  dot_S4000x160_S160x64_S4000x64_1_0_0_1_n_n.rhsIdx_val_of_single rfl i q
theorem rhs_first_1 (i : S4000x64.Idx) (q : dot_S4000x160_S160x64_S4000x64_1_0_0_1_n_n.contr.Idx) :
    (dot_S4000x160_S160x64_S4000x64_1_0_0_1_n_n.rhsIdx i q 1).val = (i 1).val := by
  unfold DotDims.rhsIdx
  rw [dif_neg (show ¬(1 : Fin S160x64.rank) ∈ dot_S4000x160_S160x64_S4000x64_1_0_0_1_n_n.rhsBatch by decide), dif_pos (show (1 : Fin S160x64.rank) ∈ dot_S4000x160_S160x64_S4000x64_1_0_0_1_n_n.rhsNonContracting by decide)]
  rfl

/-- The first product into a zero accumulator at row `p`, column `k`: the row of the left operand against the column of the right. -/
theorem first_product_apply (x : FVec Ideal S4000x160 .bf16) (w : FVec Ideal S160x64 .bf16) (p : Fin 4000) (k : Fin 64) :
    matmul dot_S4000x160_S160x64_S4000x64_1_0_0_1_n_n none x w (constant (F := Ideal) S4000x64 .f32 0x00000000#32) (ix2 p k)
      = ∑ l : Fin 160, x (ix2 p l) * w (ix2 l k) := by
  refine (Ideal.matmul_constant_zero_apply dot_S4000x160_S160x64_S4000x64_1_0_0_1_n_n none x w (ix2 p k)).trans ?_
  rw [← Equiv.sum_comp (ValueIdx.contrEquiv1 dot_S4000x160_S160x64_S4000x64_1_0_0_1_n_n 160 rfl rfl).symm]
  refine Finset.sum_congr rfl fun l _ => ?_
  have hk := ValueIdx.contrEquiv1_symm_val dot_S4000x160_S160x64_S4000x64_1_0_0_1_n_n 160 rfl rfl l
  have el : dot_S4000x160_S160x64_S4000x64_1_0_0_1_n_n.lhsIdx (ix2 p k) ((ValueIdx.contrEquiv1 dot_S4000x160_S160x64_S4000x64_1_0_0_1_n_n 160 rfl rfl).symm l) = ix2 p l := funext fun a => Fin.ext (by
    match a with
    | ⟨0, _⟩ => exact lhs_first_0 _ _
    | ⟨1, _⟩ => exact (lhs_first_1 _ _).trans hk)
  have er : dot_S4000x160_S160x64_S4000x64_1_0_0_1_n_n.rhsIdx (ix2 p k) ((ValueIdx.contrEquiv1 dot_S4000x160_S160x64_S4000x64_1_0_0_1_n_n 160 rfl rfl).symm l) = ix2 l k := funext fun a => Fin.ext (by
    match a with
    | ⟨0, _⟩ => exact (rhs_first_0 _ _).trans hk
    | ⟨1, _⟩ => exact rhs_first_1 _ _)
  rw [el, er]

theorem lhs_second_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_second_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_second_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_second_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The second product into a zero accumulator at row `p`, column `q`. -/
theorem second_product_apply (x : FVec Ideal S4000x64 .bf16) (w : FVec Ideal S64x64 .bf16) (p : Fin 4000) (q : Fin 64) :
    matmul dot_S4000x64_S64x64_S4000x64_1_0_0_1_n_n none x w (constant (F := Ideal) S4000x64 .f32 0x00000000#32) (ix2 p q)
      = ∑ k : Fin 64, x (ix2 p k) * w (ix2 k q) := by
  refine (Ideal.matmul_constant_zero_apply dot_S4000x64_S64x64_S4000x64_1_0_0_1_n_n none x w (ix2 p q)).trans ?_
  rw [← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_second_0 _ _
    | ⟨1, _⟩ => exact (lhs_second_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_second_0 _ _).trans hk
    | ⟨1, _⟩ => exact rhs_second_1 _ _)
  rw [el, er]

/-! ## The perceptron on one row -/

/-- The three row blocks side by side, read at row `p`, column `l`: the row of the first for `l < 64`, of the second for
    `64 ≤ l < 128`, of the third from `128` on. -/
theorem cat_apply (y0 y1 : FVec Ideal S4000x64 .f32) (y2 : FVec Ideal S4000x32 .f32)
    (h : Shape.Concatenates [S4000x64, S4000x64, S4000x32] S4000x160 1) (p : Fin 4000) (l : Fin 160) :
    concatenate S4000x160 1 [⟨S4000x64, y0⟩, ⟨S4000x64, y1⟩, ⟨S4000x32, y2⟩] h (ix2 p l)
      = Cert.Spec.catRow (fun l => y0 (ix2 p l)) (fun l => y1 (ix2 p l)) (fun l => y2 (ix2 p l)) l := by
  unfold Cert.Spec.catRow
  by_cases h0 : l.val < 64
  · rw [dif_pos h0]
    exact concatenate_apply_piece 1 [⟨S4000x64, y0⟩, ⟨S4000x64, y1⟩, ⟨S4000x32, y2⟩] h (ix2 p l) 0 (by show (0 : ℕ) < 3; omega) S4000x64 y0 rfl rfl 0 rfl (ix2 p ⟨l.val, h0⟩)
      (fun b hb => by
        match b with
        | ⟨0, _⟩ => rfl
        | ⟨1, _⟩ => exact absurd rfl hb)
      (Nat.zero_add _)
  · rw [dif_neg h0]
    by_cases h1 : l.val < 128
    · rw [dif_pos h1]
      exact concatenate_apply_piece 1 [⟨S4000x64, y0⟩, ⟨S4000x64, y1⟩, ⟨S4000x32, y2⟩] h (ix2 p l) 1 (by show (1 : ℕ) < 3; omega) S4000x64 y1 rfl rfl 64 rfl (ix2 p ⟨l.val - 64, by omega⟩)
        (fun b hb => by
          match b with
          | ⟨0, _⟩ => rfl
          | ⟨1, _⟩ => exact absurd rfl hb)
        (by show 64 + (l.val - 64) = l.val; omega)
    · rw [dif_neg h1]
      exact concatenate_apply_piece 1 [⟨S4000x64, y0⟩, ⟨S4000x64, y1⟩, ⟨S4000x32, y2⟩] h (ix2 p l) 2 (by show (2 : ℕ) < 3; omega) S4000x32 y2 rfl rfl 128 rfl (ix2 p ⟨l.val - 128, by omega⟩)
        (fun b hb => by
          match b with
          | ⟨0, _⟩ => rfl
          | ⟨1, _⟩ => exact absurd rfl hb)
        (by show 128 + (l.val - 128) = l.val; omega)

/-- A bias of 64 entries laid as one row and repeated down 4000 rows, read at row `p`, column `k`: the bias at `k`. -/
theorem bias_apply (b : FVec Ideal S64 .f32) (h : S64.ShapeCasts S1x64) (h' : S1x64.Broadcasts S4000x64) (p : Fin 4000) (k : Fin 64) :
    broadcastTo S4000x64 (shapeCast S1x64 b h) h' (ix2 p k) = b (ix1 k) :=
  (broadcastTo_1b_ab_apply _ h' p k).trans (shapeCast_a_1a_apply b h 0 k)

/-- THE BODY'S RESULT at row `p`, column `q`: the perceptron on row `p` of the three loaded blocks side by side. -/
theorem payload_apply (x0 x1 : Vec Ideal S4000x64 .f32) (x2 : Vec Ideal S4000x32 .f32) (x3 : Vec Ideal S160x64 .f32)
    (x4 : Vec Ideal S64 .f32) (x5 : Vec Ideal S64x64 .f32) (x6 : Vec Ideal S64 .f32) (p : Fin 4000) (q : Fin 64) :
    k0_pay1 x0 x1 x2 x3 x4 x5 x6 (ix2 p q)
      = Cert.Spec.mlpRow (Cert.Spec.catRow (fun l => x0 (ix2 p l)) (fun l => x1 (ix2 p l)) (fun l => x2 (ix2 p l))) x3 x4 x5 x6 q := by
  unfold k0_pay1 Cert.Spec.mlpRow Cert.Spec.hidden
  refine (addf_apply _ _ _).trans (congrArg₂ (· + ·) ?_ (bias_apply x6 _ _ p q))
  refine (second_product_apply _ _ p q).trans (Finset.sum_congr rfl fun k _ => congrArg₂ (· * ·) ?_ ?_)
  · refine (truncf_apply (ψ := .bf16) _ bitsLt_bf16_f32 _).trans ((maximumf_apply _ _ _).trans (congrArg₂ max ?_ rfl))
    refine (addf_apply _ _ _).trans (congrArg₂ (· + ·) ?_ (bias_apply x4 _ _ p k))
    refine (first_product_apply _ _ p k).trans (Finset.sum_congr rfl fun l _ => congrArg₂ (· * ·) ?_ ?_)
    · refine (truncf_apply (ψ := .bf16) _ bitsLt_bf16_f32 _).trans ?_
      rw [shapeCast_self x0, shapeCast_self x1]
      exact cat_apply x0 x1 x2 _ p l
    · exact (truncf_apply (ψ := .bf16) _ bitsLt_bf16_f32 _).trans (congrFun (shapeCast_self x3 _) (ix2 l k))
  · exact (truncf_apply (ψ := .bf16) _ bitsLt_bf16_f32 _).trans (congrFun (shapeCast_self x5 _) (ix2 k q))

/-! ## What a point writes back -/

theorem zero_offsets₂ : (![0, 0] : Fin 2 → Nat) = fun _ => 0 := funext fun a => by
  match a with
  | ⟨0, _⟩ => rfl
  | ⟨1, _⟩ => rfl

theorem zero_offsets₁ : (![0] : Fin 1 → Nat) = fun _ => 0 := funext fun a => by
  match a with
  | ⟨0, _⟩ => rfl

/-- The grid has 250 points. -/
theorem grid_points : grid0.N = 250 := by decide

/-- The printed index maps, decided over the grid: at point `t` the three row-tiled inputs and the output are on row
    block `t`, column block `0`; the weights and biases are on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of point `t`'s block is edge `4000 t + p`. -/
abbrev edgeOf (t : Fin cfg0.N) (p : Fin 4000) : Fin 1000000 :=
  ⟨t.val * 4000 + p.val, by have ht : t.val < 250 := Nat.lt_of_lt_of_eq t.isLt grid_points; have hp := p.isLt; omega⟩

/-- Point `t`'s block of the gathered source features, at row `p`: the features of edge `4000 t + p`. -/
theorem src_block (c : Dev nD) (t : Fin cfg0.N) (p : Fin 4000) (l : Fin 64) :
    iblk0 V c 0 t (ix2 p l : S4000x64.Idx) = V c main_v10 (ix2 (edgeOf t p) l) := by
  unfold iblk0
  show V c main_v10 (((cfg0.win 0).blk t).view.emb (ix2 p l : S4000x64.Idx)) = _
  obtain ⟨e0, e1, -⟩ := block_indices t
  refine congrArg (V c main_v10) (funext fun a => Fin.ext ?_)
  match a with
  | ⟨0, _⟩ => show win0_0.index t (0 : Fin 2) * 4000 + 1 * p.val = t.val * 4000 + p.val; omega
  | ⟨1, _⟩ => show win0_0.index t (1 : Fin 2) * 64 + 1 * l.val = l.val; omega

/-- Point `t`'s block of the gathered target features, at row `p`: the features of edge `4000 t + p`. -/
theorem dst_block (c : Dev nD) (t : Fin cfg0.N) (p : Fin 4000) (l : Fin 64) :
    iblk0 V c 1 t (ix2 p l : S4000x64.Idx) = V c main_v17 (ix2 (edgeOf t p) l) := by
  unfold iblk0
  show V c main_v17 (((cfg0.win 1).blk t).view.emb (ix2 p l : S4000x64.Idx)) = _
  obtain ⟨-, -, e0, e1, -⟩ := block_indices t
  refine congrArg (V c main_v17) (funext fun a => Fin.ext ?_)
  match a with
  | ⟨0, _⟩ => show win0_1.index t (0 : Fin 2) * 4000 + 1 * p.val = t.val * 4000 + p.val; omega
  | ⟨1, _⟩ => show win0_1.index t (1 : Fin 2) * 64 + 1 * l.val = l.val; omega

/-- Point `t`'s block of the edge features, at row `p`: the features of edge `4000 t + p`. -/
theorem edge_block (c : Dev nD) (t : Fin cfg0.N) (p : Fin 4000) (l : Fin 32) :
    iblk0 V c 2 t (ix2 p l : S4000x32.Idx) = V c main_arg2 (ix2 (edgeOf t p) l) := by
  unfold iblk0
  show V c main_arg2 (((cfg0.win 2).blk t).view.emb (ix2 p l : S4000x32.Idx)) = _
  obtain ⟨-, -, -, -, e0, e1, -⟩ := block_indices t
  refine congrArg (V c main_arg2) (funext fun a => Fin.ext ?_)
  match a with
  | ⟨0, _⟩ => show win0_2.index t (0 : Fin 2) * 4000 + 1 * p.val = t.val * 4000 + p.val; omega
  | ⟨1, _⟩ => show win0_2.index t (1 : Fin 2) * 32 + 1 * l.val = l.val; omega

/-- Every point's block of the first weight matrix is the whole matrix. -/
theorem w1_block (c : Dev nD) (t : Fin cfg0.N) : (iblk0 V c 3 t : Vec Ideal S160x64 .f32) = V c main_v18 := by
  unfold iblk0
  funext y
  show V c main_v18 (((cfg0.win 3).blk t).view.emb y) = _
  obtain ⟨-, -, -, -, -, -, e0, e1, -⟩ := block_indices t
  refine congrArg (V c main_v18) (funext fun a => Fin.ext ?_)
  match a with
  | ⟨0, _⟩ => show win0_3.index t (0 : Fin 2) * 160 + 1 * (y 0).val = (y 0).val; omega
  | ⟨1, _⟩ => show win0_3.index t (1 : Fin 2) * 64 + 1 * (y 1).val = (y 1).val; omega

/-- Every point's block of the first bias is the whole bias. -/
theorem b1_block (c : Dev nD) (t : Fin cfg0.N) : (iblk0 V c 4 t : Vec Ideal S64 .f32) = V c main_arg4 := by
  unfold iblk0
  funext y
  show V c main_arg4 (((cfg0.win 4).blk t).view.emb y) = _
  obtain ⟨-, -, -, -, -, -, -, -, e0, -⟩ := block_indices t
  refine congrArg (V c main_arg4) (funext fun a => Fin.ext ?_)
  match a with
  | ⟨0, _⟩ => show win0_4.index t (0 : Fin 1) * 64 + 1 * (y 0).val = (y 0).val; omega

/-- Every point's block of the second weight matrix is the whole matrix. -/
theorem w2_block (c : Dev nD) (t : Fin cfg0.N) : (iblk0 V c 5 t : Vec Ideal S64x64 .f32) = V c main_v19 := by
  unfold iblk0
  funext y
  show V c main_v19 (((cfg0.win 5).blk t).view.emb y) = _
  obtain ⟨-, -, -, -, -, -, -, -, -, e0, e1, -⟩ := block_indices t
  refine congrArg (V c main_v19) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Every point's block of the second bias is the whole bias. -/
theorem b2_block (c : Dev nD) (t : Fin cfg0.N) : (iblk0 V c 6 t : Vec Ideal S64 .f32) = V c main_arg6 := by
  unfold iblk0
  funext y
  show V c main_arg6 (((cfg0.win 6).blk t).view.emb y) = _
  obtain ⟨-, -, -, -, -, -, -, -, -, -, -, e0, -⟩ := block_indices t
  refine congrArg (V c main_arg6) (funext fun a => Fin.ext ?_)
  match a with
  | ⟨0, _⟩ => show win0_6.index t (0 : Fin 1) * 64 + 1 * (y 0).val = (y 0).val; omega

/-- Entry `(p, q)` of point `t`'s output block sits at row `4000 t + p`, column `q` of the array. -/
theorem out_emb (t : Fin cfg0.N) (p : Fin 4000) (q : Fin 64) :
    ((cfg0.win 7).blk t).view.emb (ix2 p q : S4000x64.Idx) = (ix2 (edgeOf t p) q : S1000000x64.Idx) := by
  obtain ⟨-, -, -, -, -, -, -, -, -, -, -, -, e0, e1⟩ := block_indices t
  refine funext fun a => Fin.ext ?_
  match a with
  | ⟨0, _⟩ => show win0_7.index t (0 : Fin 2) * 4000 + 1 * p.val = t.val * 4000 + p.val; omega
  | ⟨1, _⟩ => show win0_7.index t (1 : Fin 2) * 64 + 1 * q.val = q.val; omega

/-- The body's result on blocks that hold the rows of one edge and the whole weights: that edge's message. -/
theorem payload_at_edge (x0 x1 : Vec Ideal S4000x64 .f32) (x2 : Vec Ideal S4000x32 .f32)
    (xs xd : FVec Ideal S1000000x64 .f32) (ef : FVec Ideal S1000000x32 .f32) (w1 : FVec Ideal S160x64 .f32)
    (b1 : FVec Ideal S64 .f32) (w2 : FVec Ideal S64x64 .f32) (b2 : FVec Ideal S64 .f32) (p : Fin 4000) (q : Fin 64) (e : Fin 1000000)
    (h0 : ∀ l : Fin 64, x0 (ix2 p l) = xs (ix2 e l)) (h1 : ∀ l : Fin 64, x1 (ix2 p l) = xd (ix2 e l))
    (h2 : ∀ l : Fin 32, x2 (ix2 p l) = ef (ix2 e l)) :
    k0_pay1 x0 x1 x2 w1 b1 w2 b2 (ix2 p q) = Cert.Spec.Msg xs xd ef w1 b1 w2 b2 (ix2 e q) := by
  rw [payload_apply, Cert.Spec.Msg_apply, funext h0, funext h1, funext h2]

/-- WHAT POINT `t` WRITES BACK is block `t` of the array of every edge's message. -/
theorem flushed_eq (c : Dev nD) (t : Fin cfg0.N) :
    (dat0 (F := Ideal) V c).flushed 7 t = ((cfg0.win 7).blk t).view.read (Elt Ideal)
      (Cert.Spec.Msg (V c main_v10) (V c main_v17) (V c main_arg2) (V c main_v18) (V c main_arg4) (V c main_v19) (V c main_arg6)) := by
  show (cfg0.win 7).cut (grid0.coords t) ((dat0 V c).after 7 t) = _
  rw [after0_7]
  unfold out0_7
  rw [View.canon_unit_zero zero_offsets₂]
  simp only [View.ld_unit_zero (S := S4000x64) zero_offsets₂, View.ld_unit_zero (S := S4000x32) zero_offsets₂,
    View.ld_unit_zero (S := S160x64) zero_offsets₂, View.ld_unit_zero (S := S64x64) zero_offsets₂,
    View.ld_unit_zero (S := S64) zero_offsets₁]
  rw [w1_block V c t, b1_block V c t, w2_block V c t, b2_block V c t]
  funext j
  obtain ⟨p, q, rfl⟩ : ∃ (p : Fin 4000) (q : Fin 64), j = (ix2 p q : S4000x64.Idx) := ⟨j 0, j 1, eq_ix2 (n0 := 4000) (n1 := 64) j⟩
  show k0_pay1 (iblk0 V c 0 t) (iblk0 V c 1 t) (iblk0 V c 2 t) (V c main_v18) (V c main_arg4) (V c main_v19) (V c main_arg6) (ix2 p q)
    = Cert.Spec.Msg (V c main_v10) (V c main_v17) (V c main_arg2) (V c main_v18) (V c main_arg4) (V c main_v19) (V c main_arg6)
        (((cfg0.win 7).blk t).view.emb (ix2 p q : S4000x64.Idx))
  rw [out_emb t p q]
  exact payload_at_edge (iblk0 V c 0 t) (iblk0 V c 1 t) (iblk0 V c 2 t) (V c main_v10) (V c main_v17) (V c main_arg2)
    (V c main_v18) (V c main_arg4) (V c main_v19) (V c main_arg6) p q (edgeOf t p)
    (fun l => src_block V c t p l) (fun l => dst_block V c t p l) (fun l => edge_block V c t p l)

/-! ## The cover, and the array -/

/-- An index of the array is in point `t`'s block iff each coordinate is in the block's range on its axis. -/
theorem mem_blk (t : Fin cfg0.N) (i : S1000000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v20).slice (win0_7.rect t)).set ↔ _
  rw [View.set_slice_whole, Rect.mem_set_unit]
  exact Iff.rfl

/-- THE COVER: row `r` of the array is in the block of point `r / 4000`, and every point writes its block back. -/
theorem cover (i : S1000000x64.Idx) :
    ∃ t : Fin cfg0.N, (cfg0.win 7).flush t = true ∧ i ∈ ((cfg0.win 7).blk t).view.set := by
  have hi0 : (i 0).val < 1000000 := (i 0).isLt
  have hi1 : (i 1).val < 64 := (i 1).isLt
  obtain ⟨t, ht⟩ : ∃ t : Fin cfg0.N, t.val = (i 0).val / 4000 :=
    ⟨⟨(i 0).val / 4000, Nat.lt_of_lt_of_eq (by omega : (i 0).val / 4000 < 250) grid_points.symm⟩, rfl⟩
  obtain ⟨-, -, -, -, -, -, -, -, -, -, -, -, e0, e1⟩ := block_indices t
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 64 ≤ (i 1).val ∧ (i 1).val < win0_7.index t (1 : Fin 2) * 64 + 64; omega

/-- After region 0 its output array holds every edge's message, as a function of the arrays the region was entered with. -/
theorem msg_array (c : Dev nD) :
    (dat0 (F := Ideal) V c).arrAt 7 cfg0.N
      = Cert.Spec.Msg (V c main_v10) (V c main_v17) (V c main_arg2) (V c main_v18) (V c main_arg4) (V c main_v19) (V c main_arg6) :=
  (dat0 (F := Ideal) V c).arrAt_eq_of_cover 7 _ (fun t _ => flushed_eq V c t) cover

end Cert.KernelIdeal.MsgRegion

end
-- ==== Proof.GruRegion.lean ====
/-
  The second region: 50 grid points, point `t` computing the new states of nodes `2000 t … 2000 t + 1999` from the
  same rows of the old states and of the summed messages and from the two stacked weight matrices and biases, which
  every point reads whole. Its output array therefore ends holding every node's new state.
-/
import proofs.«172447_j58059367907338_1_alg».proof.Proof.Gen.KernelIdeal.Frame
import proofs.«172447_j58059367907338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GruRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One stacked linear map at an entry

A [2000, 64] block of rows times a [64, 192] stacked weight matrix: at output entry (p, j) and contraction index k the
left operand is read at (p, k) and the right one at (k, j). The four coordinates, one lemma each. -/

/-- The left operand's row is the output's row. -/
theorem lhs_row (i : S2000x192.Idx) (q : dot_S2000x64_S64x192_S2000x192_1_0_0_1_n_n.contr.Idx) :
    (dot_S2000x64_S64x192_S2000x192_1_0_0_1_n_n.lhsIdx i q 0).val = (i 0).val := by
  unfold DotDims.lhsIdx
  rw [dif_neg (show ¬(0 : Fin S2000x64.rank) ∈ dot_S2000x64_S64x192_S2000x192_1_0_0_1_n_n.lhsBatch by decide), dif_pos (show (0 : Fin S2000x64.rank) ∈ dot_S2000x64_S64x192_S2000x192_1_0_0_1_n_n.lhsNonContracting by decide)]
  rfl
/-- The left operand's column is the contraction index. -/
theorem lhs_contr (i : S2000x192.Idx) (q : dot_S2000x64_S64x192_S2000x192_1_0_0_1_n_n.contr.Idx) :
    (dot_S2000x64_S64x192_S2000x192_1_0_0_1_n_n.lhsIdx i q 1).val = (q ⟨0, by decide⟩).val :=
  dot_S2000x64_S64x192_S2000x192_1_0_0_1_n_n.lhsIdx_val_of_single rfl i q
/-- The right operand's row is the contraction index. -/
theorem rhs_contr (i : S2000x192.Idx) (q : dot_S2000x64_S64x192_S2000x192_1_0_0_1_n_n.contr.Idx) :
    (dot_S2000x64_S64x192_S2000x192_1_0_0_1_n_n.rhsIdx i q 0).val = (q ⟨0, by decide⟩).val :=
  dot_S2000x64_S64x192_S2000x192_1_0_0_1_n_n.rhsIdx_val_of_single rfl i q
/-- The right operand's column is the output's column. -/
theorem rhs_col (i : S2000x192.Idx) (q : dot_S2000x64_S64x192_S2000x192_1_0_0_1_n_n.contr.Idx) :
    (dot_S2000x64_S64x192_S2000x192_1_0_0_1_n_n.rhsIdx i q 1).val = (i 1).val := by
  unfold DotDims.rhsIdx
  rw [dif_neg (show ¬(1 : Fin S64x192.rank) ∈ dot_S2000x64_S64x192_S2000x192_1_0_0_1_n_n.rhsBatch by decide), dif_pos (show (1 : Fin S64x192.rank) ∈ dot_S2000x64_S64x192_S2000x192_1_0_0_1_n_n.rhsNonContracting by decide)]
  rfl

/-- The product of a block of rows with a stacked weight matrix, into a zero accumulator, at row `p` and gate entry `j`:
    the inner product of row `p` with column `j`, a sum over the 64 units. -/
theorem matmul_zero_apply (a : FVec Ideal S2000x64 .bf16) (w : FVec Ideal S64x192 .bf16) (p : Fin 2000) (j : Fin 192) :
    matmul dot_S2000x64_S64x192_S2000x192_1_0_0_1_n_n none a w (constant (F := Ideal) S2000x192 .f32 0x00000000#32) (ix2 p j)
      = ∑ k : Fin 64, a (ix2 p k) * w (ix2 k j) := by
  refine (Ideal.matmul_constant_zero_apply dot_S2000x64_S64x192_S2000x192_1_0_0_1_n_n none a w (ix2 p j)).trans ?_
  rw [← Equiv.sum_comp (ValueIdx.contrEquiv1 dot_S2000x64_S64x192_S2000x192_1_0_0_1_n_n 64 rfl rfl).symm]
  refine Finset.sum_congr rfl fun k _ => ?_
  have hk := ValueIdx.contrEquiv1_symm_val dot_S2000x64_S64x192_S2000x192_1_0_0_1_n_n 64 rfl rfl k
  have el : dot_S2000x64_S64x192_S2000x192_1_0_0_1_n_n.lhsIdx (ix2 p j) ((ValueIdx.contrEquiv1 dot_S2000x64_S64x192_S2000x192_1_0_0_1_n_n 64 rfl rfl).symm k) = ix2 p k := funext fun ax => Fin.ext (by
    match ax with
    | ⟨0, _⟩ => exact lhs_row _ _
    | ⟨1, _⟩ => exact (lhs_contr _ _).trans hk)
  have er : dot_S2000x64_S64x192_S2000x192_1_0_0_1_n_n.rhsIdx (ix2 p j) ((ValueIdx.contrEquiv1 dot_S2000x64_S64x192_S2000x192_1_0_0_1_n_n 64 rfl rfl).symm k) = ix2 k j := funext fun ax => Fin.ext (by
    match ax with
    | ⟨0, _⟩ => exact (rhs_contr _ _).trans hk
    | ⟨1, _⟩ => exact rhs_col _ _)
  rw [el, er]

/-- One stacked linear map of the cell on a block of rows, at row `p` and gate entry `j`: the inner product of row `p`
    with column `j` of the weights, plus entry `j` of the bias (the bias is one row, repeated down the block). -/
theorem linear_apply (a : FVec Ideal S2000x64 .bf16) (w : FVec Ideal S64x192 .bf16) (b : Vec Ideal S192 .f32) (p : Fin 2000) (j : Fin 192) :
    addf (matmul dot_S2000x64_S64x192_S2000x192_1_0_0_1_n_n none a w (constant (F := Ideal) S2000x192 .f32 0x00000000#32))
      (broadcastTo S2000x192 (shapeCast S1x192 b shapeCasts_S192_S1x192) broadcasts_S1x192_S2000x192) (ix2 p j)
      = (∑ k : Fin 64, a (ix2 p k) * w (ix2 k j)) + b (ix1 j) := by
  rw [addf_apply, matmul_zero_apply, broadcastTo_1b_ab_apply, shapeCast_a_1a_apply]

/-! ## The two stacked gate arrays of a block -/

/-- The three input gates side by side: the block of summed messages times the stacked input weights, plus the input
    bias (the change of float format on the operands is the identity on ideal values). -/
def inputGates (x1 : Vec Ideal S2000x64 .f32) (x2 : Vec Ideal S64x192 .f32) (x4 : Vec Ideal S192 .f32) : FVec Ideal S2000x192 .f32 :=
  addf (matmul dot_S2000x64_S64x192_S2000x192_1_0_0_1_n_n none
      (truncf .bf16 (shapeCast S2000x64 x1 shapeCasts_S2000x64_S2000x64) bitsLt_bf16_f32)
      (truncf .bf16 (shapeCast S64x192 x2 shapeCasts_S64x192_S64x192) bitsLt_bf16_f32)
      (constant (F := Ideal) S2000x192 .f32 0x00000000#32))
    (broadcastTo S2000x192 (shapeCast S1x192 x4 shapeCasts_S192_S1x192) broadcasts_S1x192_S2000x192)

/-- The three state gates side by side: the block of old states times the stacked state weights, plus the state bias. -/
def stateGates (x0 : Vec Ideal S2000x64 .f32) (x3 : Vec Ideal S64x192 .f32) (x5 : Vec Ideal S192 .f32) : FVec Ideal S2000x192 .f32 :=
  addf (matmul dot_S2000x64_S64x192_S2000x192_1_0_0_1_n_n none
      (truncf .bf16 x0 bitsLt_bf16_f32)
      (truncf .bf16 (shapeCast S64x192 x3 shapeCasts_S64x192_S64x192) bitsLt_bf16_f32)
      (constant (F := Ideal) S2000x192 .f32 0x00000000#32))
    (broadcastTo S2000x192 (shapeCast S1x192 x5 shapeCasts_S192_S1x192) broadcasts_S1x192_S2000x192)

/-- Entry (p, j) of the input gates is the specification's linear map on row `p` of the summed messages. -/
theorem inputGates_apply (x1 : Vec Ideal S2000x64 .f32) (x2 : Vec Ideal S64x192 .f32) (x4 : Vec Ideal S192 .f32) (p : Fin 2000) (j : Fin 192) :
    inputGates x1 x2 x4 (ix2 p j) = Cert.Spec.gate (fun k => x1 (ix2 p k)) x2 x4 j := by
  unfold inputGates
  refine (linear_apply _ _ x4 p j).trans ?_
  rw [shapeCast_self, shapeCast_self]
  rfl

/-- Entry (p, j) of the state gates is the specification's linear map on row `p` of the old states. -/
theorem stateGates_apply (x0 : Vec Ideal S2000x64 .f32) (x3 : Vec Ideal S64x192 .f32) (x5 : Vec Ideal S192 .f32) (p : Fin 2000) (j : Fin 192) :
    stateGates x0 x3 x5 (ix2 p j) = Cert.Spec.gate (fun k => x0 (ix2 p k)) x3 x5 j := by
  unfold stateGates
  refine (linear_apply _ _ x5 p j).trans ?_
  rw [shapeCast_self]
  rfl

/-! ## The block's payload at an entry -/

/-- The payload is the cell's formula on the column slices of the two stacked gate arrays: the reset gate from columns
    0 … 63, the update gate from columns 64 … 127, the candidate from columns 128 … 191, and the old state itself. -/
theorem pay_slices (x0 x1 : Vec Ideal S2000x64 .f32) (x2 x3 : Vec Ideal S64x192 .f32) (x4 x5 : Vec Ideal S192 .f32) (i : S2000x64.Idx) :
    k1_pay1 x0 x1 x2 x3 x4 x5 i
      = (Ideal.ofBits .f32 0x3F800000#32
          - Ideal.logistic (extractStridedSlice S2000x64 ![0, 64] (inputGates x1 x2 x4) slices_S2000x192_o0_64_S2000x64 i
              + extractStridedSlice S2000x64 ![0, 64] (stateGates x0 x3 x5) slices_S2000x192_o0_64_S2000x64 i))
        * Ideal.tanh (extractStridedSlice S2000x64 ![0, 128] (inputGates x1 x2 x4) slices_S2000x192_o0_128_S2000x64 i
            + Ideal.logistic (extractStridedSlice S2000x64 ![0, 0] (inputGates x1 x2 x4) slices_S2000x192_o0_0_S2000x64 i
                + extractStridedSlice S2000x64 ![0, 0] (stateGates x0 x3 x5) slices_S2000x192_o0_0_S2000x64 i)
              * extractStridedSlice S2000x64 ![0, 128] (stateGates x0 x3 x5) slices_S2000x192_o0_128_S2000x64 i)
        + Ideal.logistic (extractStridedSlice S2000x64 ![0, 64] (inputGates x1 x2 x4) slices_S2000x192_o0_64_S2000x64 i
              + extractStridedSlice S2000x64 ![0, 64] (stateGates x0 x3 x5) slices_S2000x192_o0_64_S2000x64 i)
          * x0 i := rfl

/-- The payload at row `p` and unit `q` is the cell on row `p` of the two row blocks: it depends on row `p` of the old
    states, row `p` of the summed messages, and the whole weights and biases; the slice at column offset `o` reads gate
    entry `o + q`. -/
theorem pay_apply (x0 x1 : Vec Ideal S2000x64 .f32) (x2 x3 : Vec Ideal S64x192 .f32) (x4 x5 : Vec Ideal S192 .f32) (p : Fin 2000) (q : Fin 64) :
    k1_pay1 x0 x1 x2 x3 x4 x5 (ix2 p q)
      = Cert.Spec.gruRow (fun k => x0 (ix2 p k)) (fun k => x1 (ix2 p k)) x2 x3 x4 x5 q := by
  rw [pay_slices]
  rw [slice2_axis1_apply 0 (inputGates x1 x2 x4) slices_S2000x192_o0_0_S2000x64 p q ⟨0 + q.val, by omega⟩ rfl,
    slice2_axis1_apply 0 (stateGates x0 x3 x5) slices_S2000x192_o0_0_S2000x64 p q ⟨0 + q.val, by omega⟩ rfl,
    slice2_axis1_apply 64 (inputGates x1 x2 x4) slices_S2000x192_o0_64_S2000x64 p q ⟨64 + q.val, by omega⟩ rfl,
    slice2_axis1_apply 64 (stateGates x0 x3 x5) slices_S2000x192_o0_64_S2000x64 p q ⟨64 + q.val, by omega⟩ rfl,
    slice2_axis1_apply 128 (inputGates x1 x2 x4) slices_S2000x192_o0_128_S2000x64 p q ⟨128 + q.val, by omega⟩ rfl,
    slice2_axis1_apply 128 (stateGates x0 x3 x5) slices_S2000x192_o0_128_S2000x64 p q ⟨128 + q.val, by omega⟩ rfl]
  simp only [inputGates_apply, stateGates_apply]
  rfl

/-! ## From blocks to the array -/

-- the core's buffer contents when the region is entered: any
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The windows' block indices over the grid: the three row-tiled windows are at row block `t`, column block 0; the
    weights and the biases are at block 0 at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 2) = t.val ∧ win1_6.index t (1 : Fin 2) = 0 :=
  (by decide +kernel : ∀ t : Fin grid1.N, _)

/-- Point `t`'s block of the old states is rows `2000 t … 2000 t + 1999` of the array. -/
theorem states_blk_apply (c : Dev nD) (t : Fin cfg1.N) (p : Fin 2000) (k : Fin 64) (r : Fin 100000) (hr : r.val = t.val * 2000 + p.val) :
    (iblk1 V c 0 t : Vec Ideal S2000x64 .f32) (ix2 p k) = (V c main_arg0 : S100000x64.Idx → EReal) (ix2 r k) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 2000 + 1 * p.val = r.val; omega
  | ⟨1, _⟩ => show win1_0.index t (1 : Fin 2) * 64 + 1 * k.val = k.val; omega

/-- Point `t`'s block of the summed messages is rows `2000 t … 2000 t + 1999` of the array. -/
theorem messages_blk_apply (c : Dev nD) (t : Fin cfg1.N) (p : Fin 2000) (k : Fin 64) (r : Fin 100000) (hr : r.val = t.val * 2000 + p.val) :
    (iblk1 V c 1 t : Vec Ideal S2000x64 .f32) (ix2 p k) = (V c main_v23 : S100000x64.Idx → EReal) (ix2 r k) := by
  obtain ⟨-, -, e0, e1, -⟩ := idx_facts t
  unfold iblk1
  rw [View.read_apply]
  show V c main_v23 _ = V c main_v23 _
  congr 1
  funext a
  apply Fin.ext
  match a with
  | ⟨0, _⟩ => show win1_1.index t (0 : Fin 2) * 2000 + 1 * p.val = r.val; omega
  | ⟨1, _⟩ => show win1_1.index t (1 : Fin 2) * 64 + 1 * k.val = k.val; omega

/-- Every point's block of the stacked input weights is the whole array. -/
theorem wih_blk_eq (c : Dev nD) (t : Fin cfg1.N) : (iblk1 V c 2 t : Vec Ideal S64x192 .f32) = V c main_v24 := by
  obtain ⟨-, -, -, -, e0, e1, -⟩ := idx_facts t
  funext y
  unfold iblk1
  rw [View.read_apply]
  show V c main_v24 _ = V c main_v24 y
  congr 1
  funext a
  apply Fin.ext
  match a with
  | ⟨0, _⟩ => show win1_2.index t (0 : Fin 2) * 64 + 1 * (y 0).val = (y 0).val; omega
  | ⟨1, _⟩ => show win1_2.index t (1 : Fin 2) * 192 + 1 * (y 1).val = (y 1).val; omega

/-- Every point's block of the stacked state weights is the whole array. -/
theorem whh_blk_eq (c : Dev nD) (t : Fin cfg1.N) : (iblk1 V c 3 t : Vec Ideal S64x192 .f32) = V c main_v25 := by
  obtain ⟨-, -, -, -, -, -, e0, e1, -⟩ := idx_facts t
  funext y
  unfold iblk1
  rw [View.read_apply]
  show V c main_v25 _ = V c main_v25 y
  congr 1
  funext a
  apply Fin.ext
  match a with
  | ⟨0, _⟩ => show win1_3.index t (0 : Fin 2) * 64 + 1 * (y 0).val = (y 0).val; omega
  | ⟨1, _⟩ => show win1_3.index t (1 : Fin 2) * 192 + 1 * (y 1).val = (y 1).val; omega

/-- Every point's block of the input bias is the whole array. -/
theorem bih_blk_eq (c : Dev nD) (t : Fin cfg1.N) : (iblk1 V c 4 t : Vec Ideal S192 .f32) = V c main_arg9 := by
  obtain ⟨-, -, -, -, -, -, -, -, e0, -⟩ := idx_facts t
  funext y
  unfold iblk1
  rw [View.read_apply]
  show V c main_arg9 _ = V c main_arg9 y
  congr 1
  funext a
  apply Fin.ext
  match a with
  | ⟨0, _⟩ => show win1_4.index t (0 : Fin 1) * 192 + 1 * (y 0).val = (y 0).val; omega

/-- Every point's block of the state bias is the whole array. -/
theorem bhh_blk_eq (c : Dev nD) (t : Fin cfg1.N) : (iblk1 V c 5 t : Vec Ideal S192 .f32) = V c main_arg10 := by
  obtain ⟨-, -, -, -, -, -, -, -, -, e0, -⟩ := idx_facts t
  funext y
  unfold iblk1
  rw [View.read_apply]
  show V c main_arg10 _ = V c main_arg10 y
  congr 1
  funext a
  apply Fin.ext
  match a with
  | ⟨0, _⟩ => show win1_5.index t (0 : Fin 1) * 192 + 1 * (y 0).val = (y 0).val; omega

/-- WHAT POINT `t` WRITES BACK is block `t` of every node's new state: entry (p, q) of the block is the cell on row `p`
    of the point's two row blocks, which are row `2000 t + p` of the old states and of the summed messages, and entry
    (p, q) of the output's block is entry (2000 t + p, q) of the array. -/
theorem flushed_eq (c : Dev nD) (t : Fin cfg1.N) :
    (dat1 (F := Ideal) V c).flushed 6 t = ((cfg1.win 6).blk t).view.read (Elt Ideal)
      (Cert.Spec.Gru (V c main_arg0) (V c main_v23) (V c main_v24) (V c main_v25) (V c main_arg9) (V c main_arg10)) := by
  show (cfg1.win 6).cut (grid1.coords t) ((dat1 V c).after 6 t) = _
  rw [after1_6]
  unfold out1_6
  rw [View.canon_unit_zero zero_offsets2]
  simp only [View.ld_unit_zero (S := S2000x64) zero_offsets2, View.ld_unit_zero (S := S64x192) zero_offsets2, View.ld_unit_zero (S := S192) zero_offsets1]
  rw [wih_blk_eq, whh_blk_eq, bih_blk_eq, bhh_blk_eq]
  obtain ⟨-, -, -, -, -, -, -, -, -, -, e0, e1⟩ := idx_facts t
  have ht : t.val < 50 := t.isLt
  funext j
  obtain ⟨p, q, rfl⟩ : ∃ (p : Fin 2000) (q : Fin 64), j = ix2 p q := ⟨j 0, j 1, eq_ix2 j⟩
  have hemb : ((cfg1.win 6).blk t).view.emb (ix2 p q) = (ix2 (⟨t.val * 2000 + p.val, by omega⟩ : Fin 100000) q : S100000x64.Idx) := by
    funext a
    apply Fin.ext
    match a with
    | ⟨0, _⟩ => show win1_6.index t (0 : Fin 2) * 2000 + 1 * p.val = t.val * 2000 + p.val; omega
    | ⟨1, _⟩ => show win1_6.index t (1 : Fin 2) * 64 + 1 * q.val = q.val; omega
  show k1_pay1 (iblk1 V c 0 t) (iblk1 V c 1 t) (V c main_v24) (V c main_v25) (V c main_arg9) (V c main_arg10) (ix2 p q)
    = Cert.Spec.Gru (V c main_arg0) (V c main_v23) (V c main_v24) (V c main_v25) (V c main_arg9) (V c main_arg10) (((cfg1.win 6).blk t).view.emb (ix2 p q))
  rw [hemb, Cert.Spec.Gru_apply]
  refine (pay_apply (iblk1 V c 0 t) (iblk1 V c 1 t) (V c main_v24) (V c main_v25) (V c main_arg9) (V c main_arg10) p q).trans ?_
  have h0 : (fun k : Fin 64 => (iblk1 V c 0 t : Vec Ideal S2000x64 .f32) (ix2 p k))
      = fun k : Fin 64 => (V c main_arg0 : S100000x64.Idx → EReal) (ix2 (⟨t.val * 2000 + p.val, by omega⟩ : Fin 100000) k) :=
    funext fun k => states_blk_apply V c t p k _ rfl
  have h1 : (fun k : Fin 64 => (iblk1 V c 1 t : Vec Ideal S2000x64 .f32) (ix2 p k))
      = fun k : Fin 64 => (V c main_v23 : S100000x64.Idx → EReal) (ix2 (⟨t.val * 2000 + p.val, by omega⟩ : Fin 100000) k) :=
    funext fun k => messages_blk_apply V c t p k _ rfl
  rw [h0, h1]

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v26).slice (win1_6.rect t)).set ↔ _
  rw [View.set_slice_whole, Rect.mem_set_unit]
  exact Iff.rfl

/-- THE COVER: row `r` of the array is in the block of point `r / 2000`, and every point writes its block back. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 2000 := ⟨⟨(i 0).val / 2000, by show (i 0).val / 2000 < 50; omega⟩, rfl⟩
  obtain ⟨-, -, -, -, -, -, -, -, -, -, e0, e1⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- After region 1 its output array holds every node's new state, as a function of the arrays the region was entered with. -/
theorem gru_array (c : Dev nD) :
    (dat1 (F := Ideal) V c).arrAt 6 cfg1.N
      = Cert.Spec.Gru (V c main_arg0) (V c main_v23) (V c main_v24) (V c main_v25) (V c main_arg9) (V c main_arg10) :=
  (dat1 V c).arrAt_eq_of_cover 6 _ (fun t _ => flushed_eq V c t) cover

end Cert.KernelIdeal.GruRegion

end
-- ==== Proof.RefStages.lean ====
/-
  The reference program read stage by stage: its messages are the message perceptron of the gathered rows, and its
  result is the recurrent cell of the old states and of the scatter-added messages. The reference spells the logistic
  function as a quotient, `1 / (1 + exp (-x))`; on the extended reals that is the logistic function.
-/
import proofs.«172447_j58059367907338_1_alg».proof.Proof.Gen.ReferenceIdeal.Read
import proofs.«172447_j58059367907338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Stages

open Idealize.ShloMosaic Idealize.ShloMosaic.TcCoe Idealize.ShloMosaic.ValueIdx Idealize.SL.Sem
open Cert.ReferenceIdeal Cert.ReferenceIdeal.Read

/-- The joined row of edge `e` at column `l`: columns 0–63 are the source node's features, columns 64–127 the target
    node's, columns 128–159 the edge's own. -/
theorem cat_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (e : Fin 1000000) (l : Fin 160) :
    val_main_v18 (F := Ideal) x0 x1 x2 (ix2 e l)
      = Cert.Spec.catRow (fun l => val_main_v10 (F := Ideal) x0 x1 (ix2 e l)) (fun l => val_main_v17 (F := Ideal) x0 x1 (ix2 e l))
          (fun l => x2 (ix2 e l)) l := by
  unfold val_main_v18 Cert.Spec.catRow
  generalize val_main_v10 (F := Ideal) x0 x1 = xs
  generalize val_main_v17 (F := Ideal) x0 x1 = xd
  by_cases h : l.val < 64
  · rw [dif_pos h]
    refine concatenate_apply_piece (1 : Fin S1000000x160.rank) _ _ (ix2 e l) 0 (by show (0 : Nat) < 3; decide) S1000000x64 xs rfl rfl 0 rfl
      (ix2 e ⟨l.val, h⟩) (fun b hb => ?_) ?_
    · match b with
      | ⟨0, _⟩ => rfl
      | ⟨1, _⟩ => exact absurd (Fin.ext rfl) hb
    · show 0 + l.val = l.val; omega
  · rw [dif_neg h]
    by_cases h' : l.val < 128
    · rw [dif_pos h']
      refine concatenate_apply_piece (1 : Fin S1000000x160.rank) _ _ (ix2 e l) 1 (by show (1 : Nat) < 3; decide) S1000000x64 xd rfl rfl 64 rfl
        (ix2 e ⟨l.val - 64, by omega⟩) (fun b hb => ?_) ?_
      · match b with
        | ⟨0, _⟩ => rfl
        | ⟨1, _⟩ => exact absurd (Fin.ext rfl) hb
      · show 64 + (l.val - 64) = l.val; omega
    · rw [dif_neg h']
      refine concatenate_apply_piece (1 : Fin S1000000x160.rank) _ _ (ix2 e l) 2 (by show (2 : Nat) < 3; decide) S1000000x32 x2 rfl rfl 128 rfl
        (ix2 e ⟨l.val - 128, by omega⟩) (fun b hb => ?_) ?_
      · match b with
        | ⟨0, _⟩ => rfl
        | ⟨1, _⟩ => exact absurd (Fin.ext rfl) hb
      · show 128 + (l.val - 128) = l.val; omega

/-- The hidden layer of edge `e` at unit `k`: the positive part of the joined row times the first weights plus the
    first bias; the product's entry `(e, k)` depends on row `e` of the joined rows and column `k` of the weights. -/
theorem hidden_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (e : Fin 1000000) (k : Fin 64) :
    val_main_v24 (F := Ideal) x0 x1 x2 x3 x4 (ix2 e k)
      = Cert.Spec.hidden (Cert.Spec.catRow (fun l => val_main_v10 (F := Ideal) x0 x1 (ix2 e l))
          (fun l => val_main_v17 (F := Ideal) x0 x1 (ix2 e l)) (fun l => x2 (ix2 e l))) (val_main_v19 (F := Ideal) x3) x4 k := by
  unfold Cert.Spec.hidden
  rw [val_main_v24_apply, val_main_v23_apply, val_main_v20_apply, val_main_v22_apply, val_main_v21_apply,
    val_main_call0_v0_apply, val_main_call0_cst_apply]
  have hb : idx_main_v21 (idx_main_v22 (ix2 e k)) = ix1 k := funext fun a => Fin.ext (by match a with | ⟨0, _⟩ => rfl)
  rw [hb]
  show max ((∑ l : Fin 160, _) + x4 (ix1 k)) _ = _
  congr 2
  refine Finset.sum_congr rfl fun l _ => ?_
  have hl : lidx_main_v20 (ix2 e k) l = ix2 e l := funext fun a => Fin.ext (by match a with | ⟨0, _⟩ => rfl | ⟨1, _⟩ => rfl)
  have hr : ridx_main_v20 (ix2 e k) l = ix2 l k := funext fun a => Fin.ext (by match a with | ⟨0, _⟩ => rfl | ⟨1, _⟩ => rfl)
  rw [hl, hr, cat_apply]

/-- The message of edge `e` at unit `q`: the hidden layer times the second weights plus the second bias. -/
theorem message_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (e : Fin 1000000) (q : Fin 64) :
    val_main_v29 (F := Ideal) x0 x1 x2 x3 x4 x5 x6 (ix2 e q)
      = Cert.Spec.mlpRow (Cert.Spec.catRow (fun l => val_main_v10 (F := Ideal) x0 x1 (ix2 e l))
          (fun l => val_main_v17 (F := Ideal) x0 x1 (ix2 e l)) (fun l => x2 (ix2 e l))) (val_main_v19 (F := Ideal) x3) x4
          (val_main_v25 (F := Ideal) x5) x6 q := by
  unfold Cert.Spec.mlpRow
  rw [val_main_v29_apply, val_main_v26_apply, val_main_v28_apply, val_main_v27_apply]
  have hb : idx_main_v27 (idx_main_v28 (ix2 e q)) = ix1 q := funext fun a => Fin.ext (by match a with | ⟨0, _⟩ => rfl)
  rw [hb]
  show (∑ k : Fin 64, _) + x6 (ix1 q) = _
  congr 1
  refine Finset.sum_congr rfl fun k _ => ?_
  have hl : lidx_main_v26 (ix2 e q) k = ix2 e k := funext fun a => Fin.ext (by match a with | ⟨0, _⟩ => rfl | ⟨1, _⟩ => rfl)
  have hr : ridx_main_v26 (ix2 e q) k = ix2 k q := funext fun a => Fin.ext (by match a with | ⟨0, _⟩ => rfl | ⟨1, _⟩ => rfl)
  rw [hl, hr, hidden_apply]

/-- The reference's messages are the message perceptron of the gathered source rows, target rows and edge features. -/
theorem messages_eq (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v29 (F := Ideal) x0 x1 x2 x3 x4 x5 x6
      = Cert.Spec.Msg (val_main_v10 (F := Ideal) x0 x1) (val_main_v17 (F := Ideal) x0 x1) x2 (val_main_v19 (F := Ideal) x3) x4
          (val_main_v25 (F := Ideal) x5) x6 := by
  funext i
  obtain ⟨e, q, rfl⟩ : ∃ (e : Fin 1000000) (q : Fin 64), i = ix2 e q := ⟨i 0, i 1, eq_ix2 i⟩
  rw [Cert.Spec.Msg_apply, message_apply]

/-- The input-side gate pre-activations of node `n` at stacked entry `j`: the summed messages' row `n` times column `j`
    of the transposed input weights, plus the input bias. -/
theorem gi_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal))
    (x9 : (⟨S192, .f32⟩ : BufTy).Contents (Elt Ideal)) (n : Fin 100000) (j : Fin 192) :
    val_main_v37 (F := Ideal) x0 x1 x2 x3 x4 x5 x6 x7 x9 (ix2 n j)
      = Cert.Spec.gate (fun k => val_main_v32 (F := Ideal) x0 x1 x2 x3 x4 x5 x6 (ix2 n k)) (val_main_v33 (F := Ideal) x7) x9 j := by
  unfold Cert.Spec.gate
  rw [val_main_v37_apply, val_main_v34_apply, val_main_v36_apply, val_main_v35_apply]
  generalize val_main_v32 (F := Ideal) x0 x1 x2 x3 x4 x5 x6 = agg
  have hb : idx_main_v35 (idx_main_v36 (ix2 n j)) = ix1 j := funext fun a => Fin.ext (by match a with | ⟨0, _⟩ => rfl)
  rw [hb]
  show (∑ k : Fin 64, _) + x9 (ix1 j) = _
  congr 1
  refine Finset.sum_congr rfl fun k _ => ?_
  have hl : lidx_main_v34 (ix2 n j) k = ix2 n k := funext fun a => Fin.ext (by match a with | ⟨0, _⟩ => rfl | ⟨1, _⟩ => rfl)
  have hr : ridx_main_v34 (ix2 n j) k = ix2 k j := funext fun a => Fin.ext (by match a with | ⟨0, _⟩ => rfl | ⟨1, _⟩ => rfl)
  rw [hl, hr]

/-- The state-side gate pre-activations of node `n` at stacked entry `j`: the old state's row `n` times column `j` of the
    transposed recurrent weights, plus the recurrent bias. -/
theorem gh_apply (x0 : (⟨S100000x64, .f32⟩ : BufTy).Contents (Elt Ideal)) (x8 : (⟨S192x64, .f32⟩ : BufTy).Contents (Elt Ideal))
    (x10 : (⟨S192, .f32⟩ : BufTy).Contents (Elt Ideal)) (n : Fin 100000) (j : Fin 192) :
    val_main_v42 (F := Ideal) x0 x8 x10 (ix2 n j)
      = Cert.Spec.gate (fun k => x0 (ix2 n k)) (val_main_v38 (F := Ideal) x8) x10 j := by
  unfold Cert.Spec.gate
  rw [val_main_v42_apply, val_main_v39_apply, val_main_v41_apply, val_main_v40_apply]
  have hb : idx_main_v40 (idx_main_v41 (ix2 n j)) = ix1 j := funext fun a => Fin.ext (by match a with | ⟨0, _⟩ => rfl)
  rw [hb]
  show (∑ k : Fin 64, _) + x10 (ix1 j) = _
  congr 1
  refine Finset.sum_congr rfl fun k _ => ?_
  have hl : lidx_main_v39 (ix2 n j) k = ix2 n k := funext fun a => Fin.ext (by match a with | ⟨0, _⟩ => rfl | ⟨1, _⟩ => rfl)
  have hr : ridx_main_v39 (ix2 n j) k = ix2 k j := funext fun a => Fin.ext (by match a with | ⟨0, _⟩ => rfl | ⟨1, _⟩ => rfl)
  rw [hl, hr]

/-- The reset gate of node `n` at unit `q`: the quotient form of the logistic function of the first slices' sum. -/
theorem r_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal)) (x8 : (⟨S192x64, .f32⟩ : BufTy).Contents (Elt Ideal))
    (x9 : (⟨S192, .f32⟩ : BufTy).Contents (Elt Ideal)) (x10 : (⟨S192, .f32⟩ : BufTy).Contents (Elt Ideal)) (n : Fin 100000) (q : Fin 64) :
    val_main_v55 (F := Ideal) x0 x1 x2 x3 x4 x5 x6 x7 x8 x9 x10 (ix2 n q)
      = Cert.Spec.gateR (fun k => x0 (ix2 n k)) (fun k => val_main_v32 (F := Ideal) x0 x1 x2 x3 x4 x5 x6 (ix2 n k))
          (val_main_v33 (F := Ideal) x7) (val_main_v38 (F := Ideal) x8) x9 x10 q := by
  unfold Cert.Spec.gateR
  rw [val_main_v55_apply, val_main_v54_apply, val_main_cst_4_apply, val_main_v53_apply, val_main_v52_apply,
    val_main_cst_3_apply, val_main_v51_apply, val_main_v50_apply, val_main_v49_apply, val_main_v43_apply,
    val_main_v46_apply]
  have h1 : idx_main_v43 (ix2 n q) = ix2 n (⟨0 + q.val, by omega⟩ : Fin 192) :=
    funext fun a => Fin.ext (by match a with | ⟨0, _⟩ => rfl | ⟨1, _⟩ => show q.val = 0 + q.val; omega)
  have h2 : idx_main_v46 (ix2 n q) = ix2 n (⟨0 + q.val, by omega⟩ : Fin 192) :=
    funext fun a => Fin.ext (by match a with | ⟨0, _⟩ => rfl | ⟨1, _⟩ => show q.val = 0 + q.val; omega)
  rw [h1, h2, gi_apply, gh_apply]
  simp only [Ideal.hostDivf_def, Ideal.ofBits_def, Ideal.addf_def, Ideal.hostUnary_exp_def, Ideal.hostNegf_def, Ideal.negf_def]
  exact Cert.Spec.logistic_eq_div _

/-- The update gate of node `n` at unit `q`: the quotient form of the logistic function of the middle slices' sum. -/
theorem z_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal)) (x8 : (⟨S192x64, .f32⟩ : BufTy).Contents (Elt Ideal))
    (x9 : (⟨S192, .f32⟩ : BufTy).Contents (Elt Ideal)) (x10 : (⟨S192, .f32⟩ : BufTy).Contents (Elt Ideal)) (n : Fin 100000) (q : Fin 64) :
    val_main_v62 (F := Ideal) x0 x1 x2 x3 x4 x5 x6 x7 x8 x9 x10 (ix2 n q)
      = Cert.Spec.gateZ (fun k => x0 (ix2 n k)) (fun k => val_main_v32 (F := Ideal) x0 x1 x2 x3 x4 x5 x6 (ix2 n k))
          (val_main_v33 (F := Ideal) x7) (val_main_v38 (F := Ideal) x8) x9 x10 q := by
  unfold Cert.Spec.gateZ
  rw [val_main_v62_apply, val_main_v61_apply, val_main_cst_6_apply, val_main_v60_apply, val_main_v59_apply,
    val_main_cst_5_apply, val_main_v58_apply, val_main_v57_apply, val_main_v56_apply, val_main_v44_apply,
    val_main_v47_apply]
  have h1 : idx_main_v44 (ix2 n q) = ix2 n (⟨64 + q.val, by omega⟩ : Fin 192) := funext fun a => Fin.ext (by match a with | ⟨0, _⟩ => rfl | ⟨1, _⟩ => rfl)
  have h2 : idx_main_v47 (ix2 n q) = ix2 n (⟨64 + q.val, by omega⟩ : Fin 192) := funext fun a => Fin.ext (by match a with | ⟨0, _⟩ => rfl | ⟨1, _⟩ => rfl)
  rw [h1, h2, gi_apply, gh_apply]
  simp only [Ideal.hostDivf_def, Ideal.ofBits_def, Ideal.addf_def, Ideal.hostUnary_exp_def, Ideal.hostNegf_def, Ideal.negf_def]
  exact Cert.Spec.logistic_eq_div _

/-- The candidate state of node `n` at unit `q`: the hyperbolic tangent of the last input slice plus the reset gate times
    the last state slice. -/
theorem n_apply (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal)) (x8 : (⟨S192x64, .f32⟩ : BufTy).Contents (Elt Ideal))
    (x9 : (⟨S192, .f32⟩ : BufTy).Contents (Elt Ideal)) (x10 : (⟨S192, .f32⟩ : BufTy).Contents (Elt Ideal)) (n : Fin 100000) (q : Fin 64) :
    val_main_v65 (F := Ideal) x0 x1 x2 x3 x4 x5 x6 x7 x8 x9 x10 (ix2 n q)
      = Cert.Spec.gateN (fun k => x0 (ix2 n k)) (fun k => val_main_v32 (F := Ideal) x0 x1 x2 x3 x4 x5 x6 (ix2 n k))
          (val_main_v33 (F := Ideal) x7) (val_main_v38 (F := Ideal) x8) x9 x10 q := by
  unfold Cert.Spec.gateN
  rw [val_main_v65_apply, val_main_v64_apply, val_main_v63_apply, val_main_v45_apply, val_main_v48_apply, r_apply]
  have h1 : idx_main_v45 (ix2 n q) = ix2 n (⟨128 + q.val, by omega⟩ : Fin 192) := funext fun a => Fin.ext (by match a with | ⟨0, _⟩ => rfl | ⟨1, _⟩ => rfl)
  have h2 : idx_main_v48 (ix2 n q) = ix2 n (⟨128 + q.val, by omega⟩ : Fin 192) := funext fun a => Fin.ext (by match a with | ⟨0, _⟩ => rfl | ⟨1, _⟩ => rfl)
  rw [h1, h2, gi_apply, gh_apply]
  simp only [Ideal.hostUnary_tanh_def, Ideal.addf_def, Ideal.mulf_def]

/-- The reference's result is the recurrent cell of the old states and the scatter-added messages. -/
theorem state_eq (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 x8 : (⟨S192x64, .f32⟩ : BufTy).Contents (Elt Ideal))
    (x9 x10 : (⟨S192, .f32⟩ : BufTy).Contents (Elt Ideal)) :
    val_main_v70 (F := Ideal) x0 x1 x2 x3 x4 x5 x6 x7 x8 x9 x10
      = Cert.Spec.Gru x0 (val_main_v32 (F := Ideal) x0 x1 x2 x3 x4 x5 x6) (val_main_v33 (F := Ideal) x7) (val_main_v38 (F := Ideal) x8) x9 x10 := by
  funext i
  obtain ⟨n, q, rfl⟩ : ∃ (n : Fin 100000) (q : Fin 64), i = ix2 n q := ⟨i 0, i 1, eq_ix2 i⟩
  rw [Cert.Spec.Gru_apply]
  unfold Cert.Spec.gruRow
  rw [val_main_v70_apply, val_main_v68_apply, val_main_v69_apply, val_main_v67_apply, val_main_v66_apply,
    val_main_cst_7_apply, z_apply, n_apply]
  rfl

end Cert.ReferenceIdeal.Stages

end
-- ==== Proof.lean ====
/-
  Two programs for one message-passing layer of a graph network agree over the extended reals.

  Each of the million edges gets a message: a two-layer perceptron of the edge's source-node features, target-node
  features and edge features. Each node sums the messages of the edges pointing at it, and a gated recurrent cell
  turns that sum and the node's old state into its new state. The kernel program computes the messages in one tiled
  region (4000 edges a grid point) and the cell in a second (2000 nodes a grid point), with the gathers, the
  scatter-add and the weight transposes on the host between them; the reference program does everything on whole
  arrays. At exact arithmetic every step is the same operation on both sides, index by index — a tile of a matrix
  product is the same sum over the contracted axis, a change of float format is the identity, and the reference's
  `1 / (1 + exp (-x))` is the logistic function the kernel applies — so both end at one function of the arguments.
  The parts: the specification (Proof/Spec.lean), each region's output array (Proof/MsgRegion.lean,
  Proof/GruRegion.lean), the reference's stages (Proof/RefStages.lean), the kernel program's run with its result
  array named and that array read back to the arguments (Proof/KernelRun.lean, Proof/KernelValue.lean), and the
  claims (Proof/Claims.lean).
-/
import proofs.«172447_j58059367907338_1_alg».proof.Defs
import proofs.«172447_j58059367907338_1_alg».proof.Proof.Claims
import proofs.«172447_j58059367907338_1_alg».proof.Proof.MsgRegion
import proofs.«172447_j58059367907338_1_alg».proof.Proof.GruRegion
import proofs.«172447_j58059367907338_1_alg».proof.Proof.RefStages

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, trivial,
    Claims.algebraic (fun V c => Cert.KernelIdeal.MsgRegion.msg_array V c) (fun V c => Cert.KernelIdeal.GruRegion.gru_array V c)
      Cert.ReferenceIdeal.Stages.messages_eq Cert.ReferenceIdeal.Stages.state_eq⟩

end Cert.Proof

end
